-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2x2 : Shape := ⟨3, ![262144, 2, 2]⟩
abbrev S262144x512 : Shape := ⟨2, ![262144, 512]⟩
abbrev S512x64 : Shape := ⟨2, ![512, 64]⟩
abbrev S64 : Shape := ⟨1, ![64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S_ : Shape := ⟨0, ![]⟩

class Facts : Prop where
  bcast_S_S262144x2x2 : S_.BroadcastsInDim S262144x2x2 (![] : Fin 0 → Fin S262144x2x2.rank)
  reducesTo_S262144x2x2_S_d0_1_2 : S262144x2x2.ReducesTo [0, 1, 2] S_
  h_S_ : 0 < S_.numel
  bcast_S_S262144x512 : S_.BroadcastsInDim S262144x512 (![] : Fin 0 → Fin S262144x512.rank)
  reducesTo_S262144x512_S_d0_1 : S262144x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64 .f32) (main_arg8 : FVec F S64x2 .f32) (main_arg9 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg8
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S64x4 .f32) (main_arg5 : FVec F S4 .f32) (main_arg6 : FVec F S512x64 .f32) (main_arg7 : FVec F S64 .f32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4 .f32 := Host.absf main_arg4
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x2x2 .f32) (main_arg1 : FVec F S262144x512 .f32) (main_arg2 : FVec F S512x64 .f32) (main_arg3 : FVec F S64 .f32) (main_arg4 : FVec F S64x4 .f32) (main_arg5 : FVec F S4 .f32) (main_arg6 : FVec F S512x64 .f32) (main_arg7 : FVec F S64 .f32) (main_arg8 : FVec F S64x2 .f32) (main_arg9 : FVec F S2 .f32) : IVec S_ 1 :=
  let main_v0 : FVec F S262144x2x2 .f32 := Host.absf main_arg0
  let main_cst : FVec F S_ .f32 := constant S_ .f32 0x7F800000#32
  let main_v1 : FVec F S262144x2x2 .f32 := broadcastInDim S262144x2x2 ![] bcast_S_S262144x2x2 main_cst
  let main_v2 : IVec S262144x2x2 1 := cmpf .olt main_v0 main_v1
  let main_c : IVec S_ 1 := constantI S_ 1 1#1
  let main_v3 : IVec S_ 1 := (fun x v => Host.reduce IntOp.andi x v reducesTo_S262144x2x2_S_d0_1_2 h_S_) main_v2 main_c
  let main_v4 : FVec F S262144x512 .f32 := Host.absf main_arg1
  let main_cst_0 : FVec F S_ .f32 := constant S_ .f32 0x7F800000#32
  let main_v5 : FVec F S262144x512 .f32 := broadcastInDim S262144x512 ![] bcast_S_S262144x512 main_cst_0
  let main_v6 : IVec S262144x512 1 := cmpf .olt main_v4 main_v5
  let main_c_1 : IVec S_ 1 := constantI S_ 1 1#1
  let main_v7 : IVec S_ 1 := (fun x v => Host.reduce IntOp.andi x v reducesTo_S262144x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S262144x2x2 : Shape := ⟨3, ![262144, 2, 2]⟩
abbrev S262144x512 : Shape := ⟨2, ![262144, 512]⟩
abbrev S512x64 : Shape := ⟨2, ![512, 64]⟩
abbrev S64 : Shape := ⟨1, ![64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S262144x4 : Shape := ⟨2, ![262144, 4]⟩
abbrev S262144x2 : Shape := ⟨2, ![262144, 2]⟩
abbrev S2048x512 : Shape := ⟨2, ![2048, 512]⟩
abbrev S2048x4 : Shape := ⟨2, ![2048, 4]⟩
abbrev S2048x2 : Shape := ⟨2, ![2048, 2]⟩
abbrev S2048x64 : Shape := ⟨2, ![2048, 64]⟩
abbrev S1x64 : Shape := ⟨2, ![1, 64]⟩
abbrev S1x4 : Shape := ⟨2, ![1, 4]⟩
abbrev S1x2 : Shape := ⟨2, ![1, 2]⟩
abbrev S2048 : Shape := ⟨1, ![2048]⟩
abbrev S2048x1 : Shape := ⟨2, ![2048, 1]⟩

abbrev nBuf : Space → Nat
  | .hbm => 12
  | .vmem => 14
  | .smem => 0
  | _ => 0

abbrev bufTy : (tb : Table) → Fin (tcTables nBuf tb) → BufTy
  | .hbm, ⟨0, _⟩ => ⟨S262144x2x2, .f32⟩
  | .hbm, ⟨1, _⟩ => ⟨S262144x512, .f32⟩
  | .hbm, ⟨2, _⟩ => ⟨S512x64, .f32⟩
  | .hbm, ⟨3, _⟩ => ⟨S64, .f32⟩
  | .hbm, ⟨4, _⟩ => ⟨S64x4, .f32⟩
  | .hbm, ⟨5, _⟩ => ⟨S4, .f32⟩
  | .hbm, ⟨6, _⟩ => ⟨S512x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S262144x4, .f32⟩
  | .hbm, ⟨11, _⟩ => ⟨S262144x2, .f32⟩
  | .local _ .vmem, ⟨0, _⟩ => ⟨S2048x512, .f32⟩
  | .local _ .vmem, ⟨1, _⟩ => ⟨S2048x512, .f32⟩
  | .local _ .vmem, ⟨2, _⟩ => ⟨S2048x4, .f32⟩
  | .local _ .vmem, ⟨3, _⟩ => ⟨S2048x4, .f32⟩
  | .local _ .vmem, ⟨4, _⟩ => ⟨S512x64, .f32⟩
  | .local _ .vmem, ⟨5, _⟩ => ⟨S64, .f32⟩
  | .local _ .vmem, ⟨6, _⟩ => ⟨S64x4, .f32⟩
  | .local _ .vmem, ⟨7, _⟩ => ⟨S4, .f32⟩
  | .local _ .vmem, ⟨8, _⟩ => ⟨S512x64, .f32⟩
  | .local _ .vmem, ⟨9, _⟩ => ⟨S64, .f32⟩
  | .local _ .vmem, ⟨10, _⟩ => ⟨S64x2, .f32⟩
  | .local _ .vmem, ⟨11, _⟩ => ⟨S2, .f32⟩
  | .local _ .vmem, ⟨12, _⟩ => ⟨S2048x2, .f32⟩
  | .local _ .vmem, ⟨13, _⟩ => ⟨S2048x2, .f32⟩
  | _, _ => ⟨S262144x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S262144x2x2_S262144x4 : S262144x2x2.ShapeCasts S262144x4
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  shapeCasts_S4_S1x4 : S4.ShapeCasts S1x4
  broadcasts_S1x4_S2048x4 : S1x4.Broadcasts S2048x4
  slices_S2048x4_o0_0_S2048x2 : S2048x4.Slices ![0, 0] S2048x2
  slices_S2048x4_o0_2_S2048x2 : S2048x4.Slices ![0, 2] S2048x2
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  reduces_S2048x2_S2048 : S2048x2.Reduces [1] S2048
  shapeCasts_S2048_S2048x1 : S2048.ShapeCasts S2048x1
  broadcasts_S2048x1_S2048x2 : S2048x1.Broadcasts S2048x2
  inb_S2048x2_S2048x2_0_0 : ∀ a, (![0, 0] : Fin 2 → Nat) a + S2048x2.size a ≤ S2048x2.size a
  h_S2048x2 : 0 < S2048x2.numel
  dot_S2048x512_S512x64_S2048x64_1_0_0_1_n_n_wf : DotDims.WF S2048x512 S512x64 S2048x64 [1] [0] [0] [1] [] []
  dot_S2048x64_S64x4_S2048x4_1_0_0_1_n_n_wf : DotDims.WF S2048x64 S64x4 S2048x4 [1] [0] [0] [1] [] []
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S262144x4.size a
  hwx0_1 : ∀ i : grid0.Coords, EltTy.bits .f32 = 32 ∨ (Rect.block (s := S262144x4) S2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2.size a ≤ S64x2.size a
  hwx0_8 : ∀ i : grid0.Coords, EltTy.bits .f32 = 32 ∨ (Rect.block (s := S64x2) S64x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x2.size a ≤ S262144x2.size a
  hwx0_10 : ∀ i : grid0.Coords, EltTy.bits .f32 = 32 ∨ (Rect.block (s := S262144x2) S2048x2.size (cc0_transform_10 i) (hinb0_10 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x4_S2048x4_1_0_0_1_n_n : DotDims S2048x64 S64x4 S2048x4 where
  lhsContracting := [1]
  rhsContracting := [0]
  lhsNonContracting := [0]
  rhsNonContracting := [1]
  lhsBatch := []
  rhsBatch := []
  wf := dot_S2048x64_S64x4_S2048x4_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S2048x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x2x2 : Shape := ⟨3, ![262144, 2, 2]⟩
abbrev S262144x512 : Shape := ⟨2, ![262144, 512]⟩
abbrev S512x64 : Shape := ⟨2, ![512, 64]⟩
abbrev S64 : Shape := ⟨1, ![64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S262144x64 : Shape := ⟨2, ![262144, 64]⟩
abbrev S1x64 : Shape := ⟨2, ![1, 64]⟩
abbrev S_ : Shape := ⟨0, ![]⟩
abbrev S262144x4 : Shape := ⟨2, ![262144, 4]⟩
abbrev S1x4 : Shape := ⟨2, ![1, 4]⟩
abbrev S262144x2 : Shape := ⟨2, ![262144, 2]⟩
abbrev S1x2 : Shape := ⟨2, ![1, 2]⟩
abbrev S262144x1x2 : Shape := ⟨3, ![262144, 1, 2]⟩
abbrev S262144 : Shape := ⟨1, ![262144]⟩
abbrev S262144x1 : Shape := ⟨2, ![262144, 1]⟩

abbrev nBuf : Space → Nat
  | .hbm => 86
  | .vmem => 0
  | .smem => 0
  | _ => 0

abbrev bufTy : (tb : Table) → Fin (tcTables nBuf tb) → BufTy
  | .hbm, ⟨0, _⟩ => ⟨S262144x2x2, .f32⟩
  | .hbm, ⟨1, _⟩ => ⟨S262144x512, .f32⟩
  | .hbm, ⟨2, _⟩ => ⟨S512x64, .f32⟩
  | .hbm, ⟨3, _⟩ => ⟨S64, .f32⟩
  | .hbm, ⟨4, _⟩ => ⟨S64x4, .f32⟩
  | .hbm, ⟨5, _⟩ => ⟨S4, .f32⟩
  | .hbm, ⟨6, _⟩ => ⟨S512x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S262144x64, .f32⟩
  | .hbm, ⟨11, _⟩ => ⟨S1x64, .f32⟩
  | .hbm, ⟨12, _⟩ => ⟨S262144x64, .f32⟩
  | .hbm, ⟨13, _⟩ => ⟨S262144x64, .f32⟩
  | .hbm, ⟨14, _⟩ => ⟨S_, .f32⟩
  | .hbm, ⟨15, _⟩ => ⟨S262144x64, .f32⟩
  | .hbm, ⟨16, _⟩ => ⟨S262144x64, .f32⟩
  | .hbm, ⟨17, _⟩ => ⟨S262144x4, .f32⟩
  | .hbm, ⟨18, _⟩ => ⟨S1x4, .f32⟩
  | .hbm, ⟨19, _⟩ => ⟨S262144x4, .f32⟩
  | .hbm, ⟨20, _⟩ => ⟨S262144x4, .f32⟩
  | .hbm, ⟨21, _⟩ => ⟨S262144x2x2, .f32⟩
  | .hbm, ⟨22, _⟩ => ⟨S262144x2x2, .f32⟩
  | .hbm, ⟨23, _⟩ => ⟨S262144x2x2, .f32⟩
  | .hbm, ⟨24, _⟩ => ⟨S_, .f32⟩
  | .hbm, ⟨25, _⟩ => ⟨S262144x2x2, .f32⟩
  | .hbm, ⟨26, _⟩ => ⟨S262144x2x2, .f32⟩
  | .hbm, ⟨27, _⟩ => ⟨S_, .f32⟩
  | .hbm, ⟨28, _⟩ => ⟨S262144x2x2, .f32⟩
  | .hbm, ⟨29, _⟩ => ⟨S262144x2x2, .f32⟩
  | .hbm, ⟨30, _⟩ => ⟨S262144x64, .f32⟩
  | .hbm, ⟨31, _⟩ => ⟨S1x64, .f32⟩
  | .hbm, ⟨32, _⟩ => ⟨S262144x64, .f32⟩
  | .hbm, ⟨33, _⟩ => ⟨S262144x64, .f32⟩
  | .hbm, ⟨34, _⟩ => ⟨S_, .f32⟩
  | .hbm, ⟨35, _⟩ => ⟨S262144x64, .f32⟩
  | .hbm, ⟨36, _⟩ => ⟨S262144x64, .f32⟩
  | .hbm, ⟨37, _⟩ => ⟨S262144x2, .f32⟩
  | .hbm, ⟨38, _⟩ => ⟨S1x2, .f32⟩
  | .hbm, ⟨39, _⟩ => ⟨S262144x2, .f32⟩
  | .hbm, ⟨40, _⟩ => ⟨S262144x2, .f32⟩
  | .hbm, ⟨41, _⟩ => ⟨S262144x2, .f32⟩
  | .hbm, ⟨42, _⟩ => ⟨S262144x2, .f32⟩
  | .hbm, ⟨43, _⟩ => ⟨S_, .f32⟩
  | .hbm, ⟨44, _⟩ => ⟨S262144x2, .f32⟩
  | .hbm, ⟨45, _⟩ => ⟨S262144x2, .f32⟩
  | .hbm, ⟨46, _⟩ => ⟨S_, .f32⟩
  | .hbm, ⟨47, _⟩ => ⟨S262144x2, .f32⟩
  | .hbm, ⟨48, _⟩ => ⟨S262144x2, .f32⟩
  | .hbm, ⟨49, _⟩ => ⟨S262144x1x2, .f32⟩
  | .hbm, ⟨50, _⟩ => ⟨S262144x2, .f32⟩
  | .hbm, ⟨51, _⟩ => ⟨S262144x1x2, .f32⟩
  | .hbm, ⟨52, _⟩ => ⟨S262144x2, .f32⟩
  | .hbm, ⟨53, _⟩ => ⟨S262144x1x2, .f32⟩
  | .hbm, ⟨54, _⟩ => ⟨S262144x2, .f32⟩
  | .hbm, ⟨55, _⟩ => ⟨S262144x1x2, .f32⟩
  | .hbm, ⟨56, _⟩ => ⟨S262144x2, .f32⟩
  | .hbm, ⟨57, _⟩ => ⟨S262144x2, .f32⟩
  | .hbm, ⟨58, _⟩ => ⟨S262144x2, .f32⟩
  | .hbm, ⟨59, _⟩ => ⟨S_, .f32⟩
  | .hbm, ⟨60, _⟩ => ⟨S262144x2, .f32⟩
  | .hbm, ⟨61, _⟩ => ⟨S262144x2, .f32⟩
  | .hbm, ⟨62, _⟩ => ⟨S262144x2, .i1⟩
  | .hbm, ⟨63, _⟩ => ⟨S262144x2, .f32⟩
  | .hbm, ⟨64, _⟩ => ⟨S262144x2, .f32⟩
  | .hbm, ⟨65, _⟩ => ⟨S262144x2, .f32⟩
  | .hbm, ⟨66, _⟩ => ⟨S262144x2, .f32⟩
  | .hbm, ⟨67, _⟩ => ⟨S262144x2, .f32⟩
  | .hbm, ⟨68, _⟩ => ⟨S262144x2, .f32⟩
  | .hbm, ⟨69, _⟩ => ⟨S262144x2, .f32⟩
  | .hbm, ⟨70, _⟩ => ⟨S262144x2, .f32⟩
  | .hbm, ⟨71, _⟩ => ⟨S262144x2, .f32⟩
  | .hbm, ⟨72, _⟩ => ⟨S_, .f32⟩
  | .hbm, ⟨73, _⟩ => ⟨S262144, .f32⟩
  | .hbm, ⟨74, _⟩ => ⟨S_, .f32⟩
  | .hbm, ⟨75, _⟩ => ⟨S262144, .f32⟩
  | .hbm, ⟨76, _⟩ => ⟨S262144, .f32⟩
  | .hbm, ⟨77, _⟩ => ⟨S262144x1, .f32⟩
  | .hbm, ⟨78, _⟩ => ⟨S262144x2, .f32⟩
  | .hbm, ⟨79, _⟩ => ⟨S262144x2, .f32⟩
  | .hbm, ⟨80, _⟩ => ⟨S262144x2, .f32⟩
  | .hbm, ⟨81, _⟩ => ⟨S_, .f32⟩
  | .hbm, ⟨82, _⟩ => ⟨S262144, .f32⟩
  | .hbm, ⟨83, _⟩ => ⟨S262144x1, .f32⟩
  | .hbm, ⟨84, _⟩ => ⟨S262144x2, .f32⟩
  | .hbm, ⟨85, _⟩ => ⟨S262144x2, .f32⟩
  | _, _ => ⟨S262144x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  shapeCasts_S262144x4_S262144x2x2 : S262144x4.ShapeCasts S262144x2x2
  bcast_S_S262144x2x2 : S_.BroadcastsInDim S262144x2x2 (![] : Fin 0 → Fin S262144x2x2.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  bcast_S_S262144x2 : S_.BroadcastsInDim S262144x2 (![] : Fin 0 → Fin S262144x2.rank)
  slices_S262144x2x2_S262144x1x2_0_0_0 : S262144x2x2.Slices ![0, 0, 0] S262144x1x2
  shapeCasts_S262144x1x2_S262144x2 : S262144x1x2.ShapeCasts S262144x2
  slices_S262144x2x2_S262144x1x2_0_1_0 : S262144x2x2.Slices ![0, 1, 0] S262144x1x2
  reducesTo_S262144x2_S262144_d1 : S262144x2.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x2_0_1 : S262144x1.BroadcastsInDim S262144x2 (![0, 1] : Fin 2 → Fin S262144x2.rank)
  dot_S262144x512_S512x64_S262144x64_1_0_0_1_n_n_wf : DotDims.WF S262144x512 S512x64 S262144x64 [1] [0] [0] [1] [] []
  dot_S262144x64_S64x4_S262144x4_1_0_0_1_n_n_wf : DotDims.WF S262144x64 S64x4 S262144x4 [1] [0] [0] [1] [] []
  dot_S262144x64_S64x2_S262144x2_1_0_0_1_n_n_wf : DotDims.WF S262144x64 S64x2 S262144x2 [1] [0] [0] [1] [] []

variable [Facts₀]

def dot_S262144x512_S512x64_S262144x64_1_0_0_1_n_n : DotDims S262144x512 S512x64 S262144x64 where
  lhsContracting := [1]
  rhsContracting := [0]
  lhsNonContracting := [0]
  rhsNonContracting := [1]
  lhsBatch := []
  rhsBatch := []
  wf := dot_S262144x512_S512x64_S262144x64_1_0_0_1_n_n_wf
def dot_S262144x64_S64x4_S262144x4_1_0_0_1_n_n : DotDims S262144x64 S64x4 S262144x4 where
  lhsContracting := [1]
  rhsContracting := [0]
  lhsNonContracting := [0]
  rhsNonContracting := [1]
  lhsBatch := []
  rhsBatch := []
  wf := dot_S262144x64_S64x4_S262144x4_1_0_0_1_n_n_wf
def dot_S262144x64_S64x2_S262144x2_1_0_0_1_n_n : DotDims S262144x64 S64x2 S262144x2 where
  lhsContracting := [1]
  rhsContracting := [0]
  lhsNonContracting := [0]
  rhsNonContracting := [1]
  lhsBatch := []
  rhsBatch := []
  wf := dot_S262144x64_S64x2_S262144x2_1_0_0_1_n_n_wf

class Facts : Prop extends Facts₀ where

variable [Facts]
-- ==== Proof.Spec.lean ====
/-
  The network both programs compute, one batch row at a time, on the extended reals.

  A row `x` of 512 features feeds two small perceptrons. The first (512 → 64 → 4, ReLU inside, a sigmoid on top) gives
  the two sources' fuzzy measures `mu1`, `mu2`, one pair per class: its four outputs are the pairs (source, class) in
  row-major order, so source 0 owns outputs 0 and 1, source 1 outputs 2 and 3. The second (512 → 64 → 2) gives the
  interaction term `inc` per class. With the two sources' class probabilities `p0`, `p1` the Choquet integral of two
  sources is taken per class (the joint measure is `min (max mu1 mu2 + inc) 1`; which source is integrated first is
  decided by `p0 ≤ p1`), and the two classes' integrals are normalised by a softmax.

  Every step is the exact operation on the extended reals; the three float literals that occur (zero, one, minus
  infinity) are kept as the words the programs spell, since both programs spell the same words.
-/
import Idealize.ShloMosaic.PureOps.Ideal
import Idealize.ShloMosaic.PureOps.Ideal.Laws
import Idealize.ShloMosaic.Lib.ValueIdx

noncomputable section

namespace Cert.Fusion

open Idealize.ShloMosaic Idealize.ShloMosaic.ValueIdx

/-- The words of `0.0`, `1.0` and `-inf`, read as extended reals. -/
abbrev zeroW : EReal := Ideal.ofBits .f32 0x00000000#32
abbrev oneW : EReal := Ideal.ofBits .f32 0x3F800000#32
abbrev negInfW : EReal := Ideal.ofBits .f32 0xFF800000#32

/-- One output of a dense layer: the inner product of the input with one weight column, plus that column's bias. -/
def affine {n : ℕ} (x w : Fin n → EReal) (b : EReal) : EReal := (∑ k : Fin n, x k * w k) + b

/-- One hidden unit: the dense layer's output through a ReLU. -/
def hidden {n h : ℕ} (x : Fin n → EReal) (W : Fin n → Fin h → EReal) (b : Fin h → EReal) (q : Fin h) : EReal :=
  max (affine x (fun k => W k q) (b q)) zeroW

/-- One output of the two-layer perceptron, before its sigmoid: a dense layer over the hidden units. -/
def mlp {n h : ℕ} (x : Fin n → EReal) (W : Fin n → Fin h → EReal) (b : Fin h → EReal) (w' : Fin h → EReal) (b' : EReal) : EReal :=
  affine (hidden x W b) w' b'

/-- The Choquet integral of two sources with values `p0`, `p1`, singleton measures `mu1`, `mu2` and interaction `inc`:
    the smaller value is weighted by the joint measure, the excess of the larger by its own source's measure. -/
def choquet (p0 p1 mu1 mu2 inc : EReal) : EReal :=
  Scalar.select (Ideal.cmp .ole p0 p1)
    (p0 * mu1 + (p1 - p0) * min (max mu1 mu2 + inc) oneW)
    (p1 * mu2 + (p0 - p1) * min (max mu1 mu2 + inc) oneW)

/-- The largest of two entries, as both programs take it: folded from minus infinity, then once more against it. -/
def top2 (r : Fin 2 → EReal) : EReal := max negInfW ((Finset.univ : Finset (Fin 2)).fold max negInfW r)

/-- The softmax of two entries, shifted by their maximum. -/
def softmax2 (r : Fin 2 → EReal) (j : Fin 2) : EReal :=
  Ideal.div (Ideal.exp (r j - top2 r)) (∑ k : Fin 2, Ideal.exp (r k - top2 r))

/-- Output `j` of source 0 among the first perceptron's four outputs, and of source 1. -/
abbrev src0 (j : Fin 2) : Fin 4 := ⟨j.val, by omega⟩
abbrev src1 (j : Fin 2) : Fin 4 := ⟨j.val + 2, by omega⟩

/-- One class's Choquet integral for one row. -/
def fused (p : Fin 4 → EReal) (x : Fin 512 → EReal)
    (W1 : Fin 512 → Fin 64 → EReal) (b1 : Fin 64 → EReal) (W2 : Fin 64 → Fin 4 → EReal) (b2 : Fin 4 → EReal)
    (W3 : Fin 512 → Fin 64 → EReal) (b3 : Fin 64 → EReal) (W4 : Fin 64 → Fin 2 → EReal) (b4 : Fin 2 → EReal) (j : Fin 2) : EReal :=
  choquet (p (src0 j)) (p (src1 j))
    (Ideal.logistic (mlp x W1 b1 (fun q => W2 q (src0 j)) (b2 (src0 j))))
    (Ideal.logistic (mlp x W1 b1 (fun q => W2 q (src1 j)) (b2 (src1 j))))
    (Ideal.logistic (mlp x W3 b3 (fun q => W4 q j) (b4 j)))

/-- One row of the result: the softmax over the two classes' integrals. `p` is the row's four probabilities in
    row-major (source, class) order. -/
def rowOut (p : Fin 4 → EReal) (x : Fin 512 → EReal)
    (W1 : Fin 512 → Fin 64 → EReal) (b1 : Fin 64 → EReal) (W2 : Fin 64 → Fin 4 → EReal) (b2 : Fin 4 → EReal)
    (W3 : Fin 512 → Fin 64 → EReal) (b3 : Fin 64 → EReal) (W4 : Fin 64 → Fin 2 → EReal) (b4 : Fin 2 → EReal) (j : Fin 2) : EReal :=
  softmax2 (fused p x W1 b1 W2 b2 W3 b3 W4 b4) j

/-- Row `b`'s probability number `q` in row-major (source, class) order: the array's entry (b, q / 2, q % 2). -/
def probAt (probs : (⟨3, ![262144, 2, 2]⟩ : Shape).Idx → EReal) (b : Fin 262144) (q : Fin 4) : EReal :=
  probs (ix3 b (⟨q.val / 2, by have := q.isLt; omega⟩ : Fin 2) (⟨q.val % 2, by omega⟩ : Fin 2))

/-- The whole result as one function of the ten argument arrays: entry (b, j) is class `j` of row `b`. The probabilities
    arrive as [batch, source, class]; row `b`'s four, in row-major order, are entry `q` ↦ (b, q / 2, q % 2). -/
def G (probs : (⟨3, ![262144, 2, 2]⟩ : Shape).Idx → EReal) (x : (⟨2, ![262144, 512]⟩ : Shape).Idx → EReal)
    (W1 : (⟨2, ![512, 64]⟩ : Shape).Idx → EReal) (b1 : (⟨1, ![64]⟩ : Shape).Idx → EReal)
    (W2 : (⟨2, ![64, 4]⟩ : Shape).Idx → EReal) (b2 : (⟨1, ![4]⟩ : Shape).Idx → EReal)
    (W3 : (⟨2, ![512, 64]⟩ : Shape).Idx → EReal) (b3 : (⟨1, ![64]⟩ : Shape).Idx → EReal)
    (W4 : (⟨2, ![64, 2]⟩ : Shape).Idx → EReal) (b4 : (⟨1, ![2]⟩ : Shape).Idx → EReal) :
    (⟨2, ![262144, 2]⟩ : Shape).Idx → EReal := fun i =>
  rowOut (probAt probs (i 0 : Fin 262144)) (fun k => x (ix2 (i 0 : Fin 262144) k))
    (fun k h => W1 (ix2 k h)) (fun h => b1 (ix1 h)) (fun h q => W2 (ix2 h q)) (fun q => b2 (ix1 q))
    (fun k h => W3 (ix2 k h)) (fun h => b3 (ix1 h)) (fun h j => W4 (ix2 h j)) (fun j => b4 (ix1 j)) (i 1 : Fin 2)

/-- The sigmoid written out as the host writes it, with the word of `1.0`, is the ideal logistic function. -/
theorem logistic_expanded (v : EReal) : Ideal.div oneW (oneW + Ideal.exp (-v)) = Ideal.logistic v := by
  show Ideal.div (Ideal.ofBits .f32 0x3F800000#32) (Ideal.ofBits .f32 0x3F800000#32 + Ideal.exp (-v)) = _
  have h1 : Ideal.ofBits .f32 0x3F800000#32 = 1 := by simp [Ideal.ofBits, Ideal.ieee, -EReal.coe_mul]; norm_num
  rw [h1]; rfl

end Cert.Fusion

end
-- ==== Proof.LibRank2.lean ====
/-
  Rank-two vectors read at an index: general lemmas, free of any particular program.

  A matrix product into a zero accumulator at entry (r, c) is the sum over k of left (r, k) times right (k, c); a bias
  vector cast to one row and broadcast down the rows reads the bias at the column; a per-row vector cast to one column
  and broadcast across reads it at the row; a column slice reads the column shifted by the offset; a sum or a maximum
  along the second axis is a sum or a fold over that row's entries. All at the exact instance, over the extended reals.
-/
import Idealize.ShloMosaic.PureOps.Ideal.Laws
import Idealize.ShloMosaic.Lib.ValueIdx
import Idealize.ShloMosaic.Lib.Pipeline.Value

noncomputable section

namespace Cert.Rank2

open Idealize.ShloMosaic Idealize.ShloMosaic.ValueIdx

/-- A rank-one index is determined by its coordinate. -/
theorem idx1_ext {n : ℕ} {f g : (⟨1, ![n]⟩ : Shape).Idx} (h0 : (f 0).val = (g 0).val) : f = g :=
  funext fun a => Fin.ext (by match a with | ⟨0, _⟩ => exact h0)

/-- A rank-two index is determined by its two coordinates. -/
theorem idx2_ext {n0 n1 : ℕ} {f g : (⟨2, ![n0, n1]⟩ : Shape).Idx} (h0 : (f 0).val = (g 0).val)
    (h1 : (f 1).val = (g 1).val) : f = g :=
  funext fun a => Fin.ext (by match a with | ⟨0, _⟩ => exact h0 | ⟨1, _⟩ => exact h1)

/-- A rank-three index is determined by its three coordinates. -/
theorem idx3_ext {n0 n1 n2 : ℕ} {f g : (⟨3, ![n0, n1, n2]⟩ : Shape).Idx} (h0 : (f 0).val = (g 0).val)
    (h1 : (f 1).val = (g 1).val) (h2 : (f 2).val = (g 2).val) : f = g :=
  funext fun a => Fin.ext (by match a with | ⟨0, _⟩ => exact h0 | ⟨1, _⟩ => exact h1 | ⟨2, _⟩ => exact h2)

/-- A product of an [M, K] by a [K, N] matrix into the zero accumulator, at entry (r, c): the sum over the contracted
    coordinate. The dimension record enters through a bijection `e` of its contraction indices with `Fin K` and the four
    facts that say which coordinate of each operand index is the row, the column and the contracted one. -/
theorem matmul_zero_apply {M K N : ℕ} {φ₁ φ₂ : FTy}
    (d : DotDims ⟨2, ![M, K]⟩ ⟨2, ![K, N]⟩ ⟨2, ![M, N]⟩) (e : d.contr.Idx ≃ Fin K)
    (l0 : ∀ (i : (⟨2, ![M, N]⟩ : Shape).Idx) (k : Fin K), (d.lhsIdx i (e.symm k) 0).val = (i 0).val)
    (l1 : ∀ (i : (⟨2, ![M, N]⟩ : Shape).Idx) (k : Fin K), (d.lhsIdx i (e.symm k) 1).val = k.val)
    (r0 : ∀ (i : (⟨2, ![M, N]⟩ : Shape).Idx) (k : Fin K), (d.rhsIdx i (e.symm k) 0).val = k.val)
    (r1 : ∀ (i : (⟨2, ![M, N]⟩ : Shape).Idx) (k : Fin K), (d.rhsIdx i (e.symm k) 1).val = (i 1).val)
    (prec : Option ContractPrecision) (lhs : FVec Ideal ⟨2, ![M, K]⟩ φ₁) (rhs : FVec Ideal ⟨2, ![K, N]⟩ φ₂)
    (r : Fin M) (c : Fin N) :
    matmul d prec lhs rhs (constant ⟨2, ![M, N]⟩ .f32 0x00000000#32) (ix2 r c)
      = ∑ k : Fin K, lhs (ix2 r k) * rhs (ix2 k c) := by
  show FloatOps.matmul d prec lhs rhs (constant ⟨2, ![M, N]⟩ .f32 0x00000000#32) (ix2 r c) = _
  rw [Ideal.matmul_constant_zero_apply, ← Equiv.sum_comp e.symm]
  refine Finset.sum_congr rfl fun k _ => ?_
  have el : d.lhsIdx (ix2 r c) (e.symm k) = ix2 r k := idx2_ext (l0 _ _) (l1 _ _)
  have er : d.rhsIdx (ix2 r c) (e.symm k) = ix2 k c := idx2_ext (r0 _ _) (r1 _ _)
  rw [el, er]

/-- A vector of `N` entries cast to one row and broadcast down `M` rows reads, at (r, c), its entry `c`. -/
theorem rowBroadcast_apply {M N : ℕ} {α : Type} (hN : N ≠ 1) (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (c : Fin N) :
    broadcastTo ⟨2, ![M, N]⟩ (shapeCast ⟨2, ![1, N]⟩ v h1) h2 (ix2 r c) = v (ix1 c) := by
  refine (broadcastTo_apply _ h2 (ix2 r c) (ix2 (⟨0, Nat.one_pos⟩ : Fin 1) c) (fun a => ?_)).trans
    (shapeCast_apply v h1 _ (ix1 c) ?_)
  · match a with
    | ⟨0, _⟩ => show (0 : ℕ) = if (1 : ℕ) = 1 then 0 else _; rw [if_pos rfl]
    | ⟨1, _⟩ => show c.val = if N = 1 then 0 else c.val; rw [if_neg hN]
  · rw [Shape.rowMajor_val_one, Shape.rowMajor_val_two]
    show c.val = 0 * N + c.val
    omega

/-- A vector of `M` entries cast to one column and broadcast across `N` columns reads, at (r, c), its entry `r`. -/
theorem colBroadcast_apply {M N : ℕ} {α : Type} (hM : M ≠ 1) (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ v h1) h2 (ix2 r c) = v (ix1 r) := by
  refine (broadcastTo_apply _ h2 (ix2 r c) (ix2 r (⟨0, Nat.one_pos⟩ : Fin 1)) (fun a => ?_)).trans
    (shapeCast_apply v h1 _ (ix1 r) ?_)
  · match a with
    | ⟨0, _⟩ => show r.val = if M = 1 then 0 else r.val; rw [if_neg hM]
    | ⟨1, _⟩ => show (0 : ℕ) = if (1 : ℕ) = 1 then 0 else _; rw [if_pos rfl]
  · rw [Shape.rowMajor_val_one, Shape.rowMajor_val_two]
    show r.val = r.val * 1 + 0
    omega

/-- The columns `o, …, o + N' - 1` of an [M, N] matrix, at (r, c): the matrix at (r, o + c). -/
theorem colSlice_apply {M N N' : ℕ} {α : Type} (o : ℕ) (x : (⟨2, ![M, N]⟩ : Shape).Idx → α)
    (h : (⟨2, ![M, N]⟩ : Shape).Slices ![0, o] ⟨2, ![M, N']⟩) (r : Fin M) (c : Fin N') (hc : o + c.val < N) :
    extractStridedSlice ⟨2, ![M, N']⟩ ![0, o] x h (ix2 r c) = x (ix2 r ⟨o + c.val, hc⟩) :=
  extractStridedSlice_apply ![0, o] x h (ix2 r c) (ix2 r ⟨o + c.val, hc⟩) (fun a => by
    match a with
    | ⟨0, _⟩ => show r.val = 0 + r.val; omega
    | ⟨1, _⟩ => rfl)

/-- The sum of an [M, N] matrix along its second axis, at row `r`: the sum of that row's entries. -/
theorem rowSum_apply {M N : ℕ} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (r : Fin M) :
    multiReduction .add [1] ⟨1, ![M]⟩ src acc h hφ hacc (ix1 r) = ∑ k : Fin N, src (ix2 r k) := by
  rw [Ideal.multiReduction_add_single]
  exact Finset.sum_congr rfl fun k _ => congrArg src (idx2_ext rfl rfl)

/-- The maximum of an [M, N] matrix along its second axis, at row `r`: the fold of `max` over that row's entries from
    the accumulator's value. -/
theorem rowMax_apply {M N : ℕ} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ)
    (r : Fin M) :
    multiReduction .maximumf [1] ⟨1, ![M]⟩ src acc h hφ hacc (ix1 r)
      = (Finset.univ : Finset (Fin N)).fold max (Ideal.ofBits φ acc) (fun k => src (ix2 r k)) := by
  rw [Ideal.multiReduction_maximumf_single]
  exact congrArg (fun f => (Finset.univ : Finset (Fin N)).fold max (Ideal.ofBits φ acc) f)
    (funext fun k => congrArg src (idx2_ext rfl rfl))

/-- The host's maximum of an [M, N] matrix along its second axis from a scalar initial value, at row `r`: the same
    fold. -/
theorem hostRowMax_apply {M N : ℕ} {φ : FTy} (x : FVec Ideal ⟨2, ![M, N]⟩ φ) (init : (⟨0, ![]⟩ : Shape).Idx → Ideal φ)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (r : Fin M) :
    Host.reduce FloatOps.maximumf x init h' hu (ix1 r)
      = (Finset.univ : Finset (Fin N)).fold max (init ix0) (fun k => x (ix2 r k)) := by
  rw [Host.reduce_eq_fold_single FloatOps.maximumf x init h' h hu, eq_ix0 (Shape.Idx.first hu)]
  exact congrArg (fun f => (Finset.univ : Finset (Fin N)).fold max (init ix0) f)
    (funext fun k => congrArg x (idx2_ext rfl rfl))

end Cert.Rank2

end
-- ==== Proof.RefRow.lean ====
/-
  The reference program read one row at a time: its result array is the network of the specification.

  The host program computes every stage over the whole batch. Read at batch row `b`, each stage is the row-level
  quantity of the specification: the two dense layers are inner products of row `b` with weight columns, the sigmoid is
  spelled out as 1 / (1 + exp (-v)), the reshape of the first perceptron's four outputs to [source, class] and the
  slices that follow pick outputs `j` and `j + 2`, the slices of the probabilities pick (b, 0, j) and (b, 1, j), and
  the softmax's two reductions run over row `b`'s two integrals.
-/
import proofs.«160284_j32366873543134_1_alg».proof.Proof.Gen.ReferenceIdeal.Read
import proofs.«160284_j32366873543134_1_alg».proof.Proof.Spec
import proofs.«160284_j32366873543134_1_alg».proof.Proof.LibRank2
import Idealize.ShloMosaic.Lib.IdealHost

noncomputable section

namespace Cert.Fusion.Ref

open Cert.ReferenceIdeal Cert.ReferenceIdeal.Gen Cert.ReferenceIdeal.Read Idealize.ShloMosaic Idealize.ShloMosaic.ValueIdx Cert.Fusion Cert.Rank2

variable (x0 : (⟨S262144x2x2, .f32⟩ : BufTy).Contents (Elt Ideal)) (x1 : (⟨S262144x512, .f32⟩ : BufTy).Contents (Elt Ideal))
  (x2 : (⟨S512x64, .f32⟩ : BufTy).Contents (Elt Ideal)) (x3 : (⟨S64, .f32⟩ : BufTy).Contents (Elt Ideal))
  (x4 : (⟨S64x4, .f32⟩ : BufTy).Contents (Elt Ideal)) (x5 : (⟨S4, .f32⟩ : BufTy).Contents (Elt Ideal))
  (x6 : (⟨S512x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

/-- The first perceptron's hidden unit `h` for row `b`. -/
theorem hidden1 (b : Fin 262144) (h : Fin 64) :
    val_main_v4 (F := Ideal) x1 x2 x3 (ix2 b h)
      = hidden (fun k => x1 (ix2 b k)) (fun k q => x2 (ix2 k q)) (fun q => x3 (ix1 q)) h := by
  rw [val_main_v4_apply, val_main_v3_apply, val_main_v0_apply, val_main_v2_apply, val_main_v1_apply,
    val_main_call0_v0_apply, val_main_call0_cst_apply]
  have e1 : ∀ k : Fin 512, lidx_main_v0 (ix2 b h) k = ix2 b k := fun k => idx2_ext rfl rfl
  have e2 : ∀ k : Fin 512, ridx_main_v0 (ix2 b h) k = ix2 k h := fun k => idx2_ext rfl rfl
  have e3 : idx_main_v1 (idx_main_v2 (ix2 b h)) = ix1 h := idx1_ext rfl
  simp only [e1, e2, e3]
  rfl

/-- The first perceptron's output `q` for row `b`, before the sigmoid. -/
theorem linear2 (b : Fin 262144) (q : Fin 4) :
    val_main_v8 (F := Ideal) x1 x2 x3 x4 x5 (ix2 b q)
      = mlp (fun k => x1 (ix2 b k)) (fun k h => x2 (ix2 k h)) (fun h => x3 (ix1 h)) (fun h => x4 (ix2 h q)) (x5 (ix1 q)) := by
  rw [val_main_v8_apply, val_main_v5_apply, val_main_v7_apply, val_main_v6_apply]
  have e1 : ∀ k : Fin 64, lidx_main_v5 (ix2 b q) k = ix2 b k := fun k => idx2_ext rfl rfl
  have e2 : ∀ k : Fin 64, ridx_main_v5 (ix2 b q) k = ix2 k q := fun k => idx2_ext rfl rfl
  have e3 : idx_main_v6 (idx_main_v7 (ix2 b q)) = ix1 q := idx1_ext rfl
  simp only [e1, e2, e3, hidden1]
  rfl

/-- The second perceptron's hidden unit `h` for row `b`. -/
theorem hidden2 (b : Fin 262144) (h : Fin 64) :
    val_main_v20 (F := Ideal) x1 x6 x7 (ix2 b h)
      = hidden (fun k => x1 (ix2 b k)) (fun k q => x6 (ix2 k q)) (fun q => x7 (ix1 q)) h := by
  rw [val_main_v20_apply, val_main_v19_apply, val_main_v16_apply, val_main_v18_apply, val_main_v17_apply,
    val_main_call1_v0_apply, val_main_call1_cst_apply]
  have e1 : ∀ k : Fin 512, lidx_main_v16 (ix2 b h) k = ix2 b k := fun k => idx2_ext rfl rfl
  have e2 : ∀ k : Fin 512, ridx_main_v16 (ix2 b h) k = ix2 k h := fun k => idx2_ext rfl rfl
  have e3 : idx_main_v17 (idx_main_v18 (ix2 b h)) = ix1 h := idx1_ext rfl
  simp only [e1, e2, e3]
  rfl

/-- The second perceptron's output `j` for row `b`, before the sigmoid. -/
theorem linear4 (b : Fin 262144) (j : Fin 2) :
    val_main_v24 (F := Ideal) x1 x6 x7 x8 x9 (ix2 b j)
      = mlp (fun k => x1 (ix2 b k)) (fun k h => x6 (ix2 k h)) (fun h => x7 (ix1 h)) (fun h => x8 (ix2 h j)) (x9 (ix1 j)) := by
  rw [val_main_v24_apply, val_main_v21_apply, val_main_v23_apply, val_main_v22_apply]
  have e1 : ∀ k : Fin 64, lidx_main_v21 (ix2 b j) k = ix2 b k := fun k => idx2_ext rfl rfl
  have e2 : ∀ k : Fin 64, ridx_main_v21 (ix2 b j) k = ix2 k j := fun k => idx2_ext rfl rfl
  have e3 : idx_main_v22 (idx_main_v23 (ix2 b j)) = ix1 j := idx1_ext rfl
  simp only [e1, e2, e3, hidden2]
  rfl

/-- The interaction term: the sigmoid of the second perceptron's output. -/
theorem interaction (b : Fin 262144) (j : Fin 2) :
    val_main_v30 (F := Ideal) x1 x6 x7 x8 x9 (ix2 b j)
      = Ideal.logistic (mlp (fun k => x1 (ix2 b k)) (fun k h => x6 (ix2 k h)) (fun h => x7 (ix1 h)) (fun h => x8 (ix2 h j)) (x9 (ix1 j))) := by
  rw [val_main_v30_apply, val_main_v29_apply, val_main_cst_2_apply, val_main_v28_apply, val_main_v27_apply,
    val_main_cst_1_apply, val_main_v26_apply, val_main_v25_apply, linear4]
  exact logistic_expanded _

/-- The measures: the sigmoid of the first perceptron's outputs, reshaped to [source, class]. Entry (b, s, j) is the
    sigmoid of output 2 s + j. -/
theorem measure (b : Fin 262144) (s j : Fin 2) (q : Fin 4) (hq : q.val = 2 * s.val + j.val) :
    val_main_v15 (F := Ideal) x1 x2 x3 x4 x5 (ix3 b s j)
      = Ideal.logistic (mlp (fun k => x1 (ix2 b k)) (fun k h => x2 (ix2 k h)) (fun h => x3 (ix1 h)) (fun h => x4 (ix2 h q)) (x5 (ix1 q))) := by
  rw [val_main_v15_apply, val_main_v14_apply, val_main_cst_0_apply, val_main_v13_apply, val_main_v12_apply,
    val_main_cst_apply, val_main_v11_apply, val_main_v10_apply, val_main_v9_apply]
  have e : idx_main_v9 (ix3 b s j) = ix2 b q := idx2_ext
    (by show ((b.val * 2 + s.val) * 2 + j.val) / 4 = b.val; have := s.isLt; have := j.isLt; omega)
    (by show ((b.val * 2 + s.val) * 2 + j.val) % 4 = q.val; have := s.isLt; have := j.isLt; omega)
  rw [e, linear2]
  exact logistic_expanded _

/-- Source 0's measure for class `j` of row `b`. -/
theorem measure0 (b : Fin 262144) (j : Fin 2) :
    val_main_v36 (F := Ideal) x1 x2 x3 x4 x5 (ix2 b j)
      = Ideal.logistic (mlp (fun k => x1 (ix2 b k)) (fun k h => x2 (ix2 k h)) (fun h => x3 (ix1 h)) (fun h => x4 (ix2 h (src0 j))) (x5 (ix1 (src0 j)))) := by
  rw [val_main_v36_apply, val_main_v35_apply]
  have e : idx_main_v35 (idx_main_v36 (ix2 b j)) = ix3 b (0 : Fin 2) j := idx3_ext
    (by show (b.val * 2 + j.val) / 2 = b.val; have := j.isLt; omega) rfl
    (by show (b.val * 2 + j.val) % 2 = j.val; have := j.isLt; omega)
  rw [e]
  exact measure x1 x2 x3 x4 x5 b 0 j (src0 j) (by show j.val = 2 * 0 + j.val; omega)

/-- Source 1's measure for class `j` of row `b`. -/
theorem measure1 (b : Fin 262144) (j : Fin 2) :
    val_main_v38 (F := Ideal) x1 x2 x3 x4 x5 (ix2 b j)
      = Ideal.logistic (mlp (fun k => x1 (ix2 b k)) (fun k h => x2 (ix2 k h)) (fun h => x3 (ix1 h)) (fun h => x4 (ix2 h (src1 j))) (x5 (ix1 (src1 j)))) := by
  rw [val_main_v38_apply, val_main_v37_apply]
  have e : idx_main_v37 (idx_main_v38 (ix2 b j)) = ix3 b (1 : Fin 2) j := idx3_ext
    (by show (b.val * 2 + j.val) / 2 = b.val; have := j.isLt; omega) (by show 1 + 0 = 1; rfl)
    (by show (b.val * 2 + j.val) % 2 = j.val; have := j.isLt; omega)
  rw [e]
  exact measure x1 x2 x3 x4 x5 b 1 j (src1 j) (by show j.val + 2 = 2 * 1 + j.val; omega)

/-- Source 0's probability for class `j` of row `b`. -/
theorem prob0 (b : Fin 262144) (j : Fin 2) :
    val_main_v32 (F := Ideal) x0 (ix2 b j) = probAt x0 b (src0 j) := by
  rw [val_main_v32_apply, val_main_v31_apply]
  exact congrArg x0 (idx3_ext
    (by show (b.val * 2 + j.val) / 2 = b.val; have := j.isLt; omega)
    (by show 0 = j.val / 2; have := j.isLt; omega)
    (by show (b.val * 2 + j.val) % 2 = j.val % 2; have := j.isLt; omega))

/-- Source 1's probability for class `j` of row `b`. -/
theorem prob1 (b : Fin 262144) (j : Fin 2) :
    val_main_v34 (F := Ideal) x0 (ix2 b j) = probAt x0 b (src1 j) := by
  rw [val_main_v34_apply, val_main_v33_apply]
  exact congrArg x0 (idx3_ext
    (by show (b.val * 2 + j.val) / 2 = b.val; have := j.isLt; omega)
    (by show 1 + 0 = (j.val + 2) / 2; have := j.isLt; omega)
    (by show (b.val * 2 + j.val) % 2 = (j.val + 2) % 2; have := j.isLt; omega))

/-- One class's Choquet integral for row `b`. -/
theorem integral (b : Fin 262144) (j : Fin 2) :
    val_main_v52 (F := Ideal) x0 x1 x2 x3 x4 x5 x6 x7 x8 x9 (ix2 b j)
      = fused (probAt x0 b) (fun k => x1 (ix2 b k)) (fun k h => x2 (ix2 k h)) (fun h => x3 (ix1 h))
          (fun h q => x4 (ix2 h q)) (fun q => x5 (ix1 q)) (fun k h => x6 (ix2 k h)) (fun h => x7 (ix1 h))
          (fun h j => x8 (ix2 h j)) (fun j => x9 (ix1 j)) j := by
  simp only [val_main_v52_apply, val_main_v43_apply, val_main_v47_apply, val_main_v44_apply, val_main_v46_apply,
    val_main_v45_apply, val_main_v42_apply, val_main_v40_apply, val_main_v39_apply, val_main_v41_apply,
    val_main_cst_3_apply, val_main_v51_apply, val_main_v48_apply, val_main_v50_apply, val_main_v49_apply,
    prob0, prob1, measure0, measure1, interaction]
  rfl

/-- The exponential of row `b`'s integral `k` shifted by the row's maximum. -/
theorem shifted (b : Fin 262144) (k : Fin 2) :
    val_main_v59 (F := Ideal) x0 x1 x2 x3 x4 x5 x6 x7 x8 x9 (ix2 b k)
      = Ideal.exp (val_main_v52 (F := Ideal) x0 x1 x2 x3 x4 x5 x6 x7 x8 x9 (ix2 b k)
          - top2 (fun k' => val_main_v52 (F := Ideal) x0 x1 x2 x3 x4 x5 x6 x7 x8 x9 (ix2 b k'))) := by
  rw [val_main_v59_apply, val_main_v58_apply, val_main_v57_apply, val_main_v56_apply, val_main_v55_apply,
    val_main_v54_apply, val_main_cst_5_apply]
  have e1 : idx_main_v56 (idx_main_v57 (ix2 b k)) = ix1 b := idx1_ext rfl
  rw [e1]
  unfold val_main_v53
  rw [hostRowMax_apply _ _ reducesTo_S262144x2_S262144_d1 (by decide) h_S_ b]
  rfl

/-- Entry (b, j) of the reference's result: the softmax over row `b`'s two integrals. -/
theorem result (b : Fin 262144) (j : Fin 2) :
    val_main_v63 (F := Ideal) x0 x1 x2 x3 x4 x5 x6 x7 x8 x9 (ix2 b j)
      = softmax2 (fun k => val_main_v52 (F := Ideal) x0 x1 x2 x3 x4 x5 x6 x7 x8 x9 (ix2 b k)) j := by
  rw [val_main_v63_apply, val_main_v62_apply, val_main_v61_apply, val_main_v60_apply, val_main_cst_6_apply]
  have e1 : idx_main_v61 (idx_main_v62 (ix2 b j)) = ix1 b := idx1_ext rfl
  have e2 : ∀ k : Fin 2, idx_main_v60 (ix1 b) k = ix2 b k := fun k => idx2_ext rfl rfl
  simp only [e1, e2, shifted]
  unfold softmax2
  show Ideal.div _ (Ideal.ofBits .f32 0x00000000#32 + _) = _
  rw [Ideal.ofBits_zero_f32, zero_add]

/-- The reference's result array is the specification's function of its ten arguments. -/
theorem ref_eq : val_main_v63 (F := Ideal) x0 x1 x2 x3 x4 x5 x6 x7 x8 x9 = G x0 x1 x2 x3 x4 x5 x6 x7 x8 x9 := by
  funext i
  obtain ⟨b, j, rfl⟩ : ∃ (b : Fin 262144) (j : Fin 2), i = ix2 b j := ⟨i 0, i 1, eq_ix2 i⟩
  rw [result]
  simp only [integral]
  rfl

end Cert.Fusion.Ref

end
-- ==== Proof.KerRow.lean ====
/-
  The kernel's body read one row at a time: what it stores at (r, j) of its output block is the network of the
  specification applied to row `r` of its input blocks.

  The body works on a block of 2048 batch rows. Its matrix products contract over the feature or hidden axis, so
  entry (r, c) of each is an inner product of row `r` with a weight column; the narrowing of the products' operands
  to bf16 changes nothing at the exact instance. The biases are cast to one row and broadcast down the rows. The
  measures of the two sources are the column slices at offsets 0 and 2 of the first perceptron's four outputs, and the
  sources' probabilities the same slices of the flattened probability block. The softmax's two reductions run along
  each row's two entries and come back as one column broadcast across.
-/
import proofs.«160284_j32366873543134_1_alg».proof.Proof.Gen.KernelIdeal.Skeleton
import proofs.«160284_j32366873543134_1_alg».proof.Proof.Spec
import proofs.«160284_j32366873543134_1_alg».proof.Proof.LibRank2

noncomputable section

namespace Cert.Fusion.Ker

open Cert.KernelIdeal Cert.KernelIdeal.Gen Idealize.ShloMosaic Idealize.ShloMosaic.ValueIdx Cert.Fusion Cert.Rank2

/-! ## The three products' index facts -/

theorem dotA_l0 (i : S2048x64.Idx) (k : Fin 512) :
    (dot_S2048x512_S512x64_S2048x64_1_0_0_1_n_n.lhsIdx i ((contrEquiv1 dot_S2048x512_S512x64_S2048x64_1_0_0_1_n_n 512 rfl rfl).symm k) 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem dotA_l1 (i : S2048x64.Idx) (k : Fin 512) :
    (dot_S2048x512_S512x64_S2048x64_1_0_0_1_n_n.lhsIdx i ((contrEquiv1 dot_S2048x512_S512x64_S2048x64_1_0_0_1_n_n 512 rfl rfl).symm k) 1).val = k.val :=
  (dot_S2048x512_S512x64_S2048x64_1_0_0_1_n_n.lhsIdx_val_of_single rfl i _).trans (contrEquiv1_symm_val dot_S2048x512_S512x64_S2048x64_1_0_0_1_n_n 512 rfl rfl k)
theorem dotA_r0 (i : S2048x64.Idx) (k : Fin 512) :
    (dot_S2048x512_S512x64_S2048x64_1_0_0_1_n_n.rhsIdx i ((contrEquiv1 dot_S2048x512_S512x64_S2048x64_1_0_0_1_n_n 512 rfl rfl).symm k) 0).val = k.val :=
  (dot_S2048x512_S512x64_S2048x64_1_0_0_1_n_n.rhsIdx_val_of_single rfl i _).trans (contrEquiv1_symm_val dot_S2048x512_S512x64_S2048x64_1_0_0_1_n_n 512 rfl rfl k)
theorem dotA_r1 (i : S2048x64.Idx) (k : Fin 512) :
    (dot_S2048x512_S512x64_S2048x64_1_0_0_1_n_n.rhsIdx i ((contrEquiv1 dot_S2048x512_S512x64_S2048x64_1_0_0_1_n_n 512 rfl rfl).symm k) 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

theorem dotB_l0 (i : S2048x4.Idx) (k : Fin 64) :
    (dot_S2048x64_S64x4_S2048x4_1_0_0_1_n_n.lhsIdx i ((contrEquiv1 dot_S2048x64_S64x4_S2048x4_1_0_0_1_n_n 64 rfl rfl).symm k) 0).val = (i 0).val := by
  unfold DotDims.lhsIdx
  rw [dif_neg (show ¬(0 : Fin S2048x64.rank) ∈ dot_S2048x64_S64x4_S2048x4_1_0_0_1_n_n.lhsBatch by decide), dif_pos (show (0 : Fin S2048x64.rank) ∈ dot_S2048x64_S64x4_S2048x4_1_0_0_1_n_n.lhsNonContracting by decide)]
  rfl
theorem dotB_l1 (i : S2048x4.Idx) (k : Fin 64) :
    (dot_S2048x64_S64x4_S2048x4_1_0_0_1_n_n.lhsIdx i ((contrEquiv1 dot_S2048x64_S64x4_S2048x4_1_0_0_1_n_n 64 rfl rfl).symm k) 1).val = k.val :=
  (dot_S2048x64_S64x4_S2048x4_1_0_0_1_n_n.lhsIdx_val_of_single rfl i _).trans (contrEquiv1_symm_val dot_S2048x64_S64x4_S2048x4_1_0_0_1_n_n 64 rfl rfl k)
theorem dotB_r0 (i : S2048x4.Idx) (k : Fin 64) :
    (dot_S2048x64_S64x4_S2048x4_1_0_0_1_n_n.rhsIdx i ((contrEquiv1 dot_S2048x64_S64x4_S2048x4_1_0_0_1_n_n 64 rfl rfl).symm k) 0).val = k.val :=
  (dot_S2048x64_S64x4_S2048x4_1_0_0_1_n_n.rhsIdx_val_of_single rfl i _).trans (contrEquiv1_symm_val dot_S2048x64_S64x4_S2048x4_1_0_0_1_n_n 64 rfl rfl k)
theorem dotB_r1 (i : S2048x4.Idx) (k : Fin 64) :
    (dot_S2048x64_S64x4_S2048x4_1_0_0_1_n_n.rhsIdx i ((contrEquiv1 dot_S2048x64_S64x4_S2048x4_1_0_0_1_n_n 64 rfl rfl).symm k) 1).val = (i 1).val := by
  unfold DotDims.rhsIdx
  rw [dif_neg (show ¬(1 : Fin S64x4.rank) ∈ dot_S2048x64_S64x4_S2048x4_1_0_0_1_n_n.rhsBatch by decide), dif_pos (show (1 : Fin S64x4.rank) ∈ dot_S2048x64_S64x4_S2048x4_1_0_0_1_n_n.rhsNonContracting by decide)]
  rfl

theorem dotC_l0 (i : S2048x2.Idx) (k : Fin 64) :
    (dot_S2048x64_S64x2_S2048x2_1_0_0_1_n_n.lhsIdx i ((contrEquiv1 dot_S2048x64_S64x2_S2048x2_1_0_0_1_n_n 64 rfl rfl).symm k) 0).val = (i 0).val := by
  unfold DotDims.lhsIdx
  rw [dif_neg (show ¬(0 : Fin S2048x64.rank) ∈ dot_S2048x64_S64x2_S2048x2_1_0_0_1_n_n.lhsBatch by decide), dif_pos (show (0 : Fin S2048x64.rank) ∈ dot_S2048x64_S64x2_S2048x2_1_0_0_1_n_n.lhsNonContracting by decide)]
  rfl
theorem dotC_l1 (i : S2048x2.Idx) (k : Fin 64) :
    (dot_S2048x64_S64x2_S2048x2_1_0_0_1_n_n.lhsIdx i ((contrEquiv1 dot_S2048x64_S64x2_S2048x2_1_0_0_1_n_n 64 rfl rfl).symm k) 1).val = k.val :=
  (dot_S2048x64_S64x2_S2048x2_1_0_0_1_n_n.lhsIdx_val_of_single rfl i _).trans (contrEquiv1_symm_val dot_S2048x64_S64x2_S2048x2_1_0_0_1_n_n 64 rfl rfl k)
theorem dotC_r0 (i : S2048x2.Idx) (k : Fin 64) :
    (dot_S2048x64_S64x2_S2048x2_1_0_0_1_n_n.rhsIdx i ((contrEquiv1 dot_S2048x64_S64x2_S2048x2_1_0_0_1_n_n 64 rfl rfl).symm k) 0).val = k.val :=
  (dot_S2048x64_S64x2_S2048x2_1_0_0_1_n_n.rhsIdx_val_of_single rfl i _).trans (contrEquiv1_symm_val dot_S2048x64_S64x2_S2048x2_1_0_0_1_n_n 64 rfl rfl k)
theorem dotC_r1 (i : S2048x2.Idx) (k : Fin 64) :
    (dot_S2048x64_S64x2_S2048x2_1_0_0_1_n_n.rhsIdx i ((contrEquiv1 dot_S2048x64_S64x2_S2048x2_1_0_0_1_n_n 64 rfl rfl).symm k) 1).val = (i 1).val := by
  unfold DotDims.rhsIdx
  rw [dif_neg (show ¬(1 : Fin S64x2.rank) ∈ dot_S2048x64_S64x2_S2048x2_1_0_0_1_n_n.rhsBatch by decide), dif_pos (show (1 : Fin S64x2.rank) ∈ dot_S2048x64_S64x2_S2048x2_1_0_0_1_n_n.rhsNonContracting by decide)]
  rfl

/-! ## The perceptrons -/

/-- A perceptron's hidden block: the input block times the weights, plus the bias, through a ReLU. -/
def hiddenBlock (x : Vec Ideal S2048x512 .f32) (W : Vec Ideal S512x64 .f32) (bv : Vec Ideal S64 .f32) : FVec Ideal S2048x64 .f32 :=
  maximumf (addf (matmul dot_S2048x512_S512x64_S2048x64_1_0_0_1_n_n none (k0_pay2 x) (truncf .bf16 W bitsLt_bf16_f32) (constant S2048x64 .f32 0x00000000#32))
    (broadcastTo S2048x64 (shapeCast S1x64 bv shapeCasts_S64_S1x64) broadcasts_S1x64_S2048x64))
    (broadcast S2048x64 (Scalar.ofBits .f32 0x00000000#32))

/-- Hidden unit `h` of row `r`. -/
theorem hiddenBlock_apply (x : Vec Ideal S2048x512 .f32) (W : Vec Ideal S512x64 .f32) (bv : Vec Ideal S64 .f32)
    (r : Fin 2048) (h : Fin 64) :
    hiddenBlock x W bv (ix2 r h) = hidden (fun k => x (ix2 r k)) (fun k q => W (ix2 k q)) (fun q => bv (ix1 q)) h := by
  show max ((matmul dot_S2048x512_S512x64_S2048x64_1_0_0_1_n_n none (k0_pay2 x) (truncf .bf16 W bitsLt_bf16_f32) (constant S2048x64 .f32 0x00000000#32)) (ix2 r h)
    + (broadcastTo S2048x64 (shapeCast S1x64 bv shapeCasts_S64_S1x64) broadcasts_S1x64_S2048x64) (ix2 r h)) (Scalar.ofBits .f32 0x00000000#32) = _
  rw [matmul_zero_apply dot_S2048x512_S512x64_S2048x64_1_0_0_1_n_n (contrEquiv1 dot_S2048x512_S512x64_S2048x64_1_0_0_1_n_n 512 rfl rfl) dotA_l0 dotA_l1 dotA_r0 dotA_r1, rowBroadcast_apply (by decide)]
  rfl

/-- The first perceptron's payload, over its hidden block. -/
theorem pay3_eq (x : Vec Ideal S2048x512 .f32) (W1 : Vec Ideal S512x64 .f32) (b1 : Vec Ideal S64 .f32)
    (W2 : Vec Ideal S64x4 .f32) (b2 : Vec Ideal S4 .f32) :
    k0_pay3 x W1 b1 W2 b2 = logistic (addf (matmul dot_S2048x64_S64x4_S2048x4_1_0_0_1_n_n none (truncf .bf16 (hiddenBlock x W1 b1) bitsLt_bf16_f32)
      (truncf .bf16 W2 bitsLt_bf16_f32) (constant S2048x4 .f32 0x00000000#32))
      (broadcastTo S2048x4 (shapeCast S1x4 b2 shapeCasts_S4_S1x4) broadcasts_S1x4_S2048x4)) := rfl

/-- The first perceptron's output `q` of row `r`, through its sigmoid. -/
theorem pay3_apply (x : Vec Ideal S2048x512 .f32) (W1 : Vec Ideal S512x64 .f32) (b1 : Vec Ideal S64 .f32)
    (W2 : Vec Ideal S64x4 .f32) (b2 : Vec Ideal S4 .f32) (r : Fin 2048) (q : Fin 4) :
    k0_pay3 x W1 b1 W2 b2 (ix2 r q)
      = Ideal.logistic (mlp (fun k => x (ix2 r k)) (fun k h => W1 (ix2 k h)) (fun h => b1 (ix1 h)) (fun h => W2 (ix2 h q)) (b2 (ix1 q))) := by
  rw [pay3_eq]
  show Ideal.logistic ((matmul dot_S2048x64_S64x4_S2048x4_1_0_0_1_n_n none (truncf .bf16 (hiddenBlock x W1 b1) bitsLt_bf16_f32)
      (truncf .bf16 W2 bitsLt_bf16_f32) (constant S2048x4 .f32 0x00000000#32)) (ix2 r q)
    + (broadcastTo S2048x4 (shapeCast S1x4 b2 shapeCasts_S4_S1x4) broadcasts_S1x4_S2048x4) (ix2 r q)) = _
  rw [matmul_zero_apply dot_S2048x64_S64x4_S2048x4_1_0_0_1_n_n (contrEquiv1 dot_S2048x64_S64x4_S2048x4_1_0_0_1_n_n 64 rfl rfl) dotB_l0 dotB_l1 dotB_r0 dotB_r1, rowBroadcast_apply (by decide)]
  refine congrArg Ideal.logistic (congrArg (· + b2 (ix1 q)) (Finset.sum_congr rfl fun k _ => ?_))
  show hiddenBlock x W1 b1 (ix2 r k) * W2 (ix2 k q) = _
  rw [hiddenBlock_apply]

/-- The second perceptron's payload, over its hidden block. -/
theorem pay6_eq (x : Vec Ideal S2048x512 .f32) (W3 : Vec Ideal S512x64 .f32) (b3 : Vec Ideal S64 .f32)
    (W4 : Vec Ideal S64x2 .f32) (b4 : Vec Ideal S2 .f32) :
    k0_pay6 x W3 b3 W4 b4 = addf (matmul dot_S2048x64_S64x2_S2048x2_1_0_0_1_n_n none (truncf .bf16 (hiddenBlock x W3 b3) bitsLt_bf16_f32)
      (truncf .bf16 W4 bitsLt_bf16_f32) (constant S2048x2 .f32 0x00000000#32))
      (broadcastTo S2048x2 (shapeCast S1x2 b4 shapeCasts_S2_S1x2) broadcasts_S1x2_S2048x2) := rfl

/-- The second perceptron's output `j` of row `r`, before its sigmoid. -/
theorem pay6_apply (x : Vec Ideal S2048x512 .f32) (W3 : Vec Ideal S512x64 .f32) (b3 : Vec Ideal S64 .f32)
    (W4 : Vec Ideal S64x2 .f32) (b4 : Vec Ideal S2 .f32) (r : Fin 2048) (j : Fin 2) :
    k0_pay6 x W3 b3 W4 b4 (ix2 r j)
      = mlp (fun k => x (ix2 r k)) (fun k h => W3 (ix2 k h)) (fun h => b3 (ix1 h)) (fun h => W4 (ix2 h j)) (b4 (ix1 j)) := by
  rw [pay6_eq]
  show (matmul dot_S2048x64_S64x2_S2048x2_1_0_0_1_n_n none (truncf .bf16 (hiddenBlock x W3 b3) bitsLt_bf16_f32)
      (truncf .bf16 W4 bitsLt_bf16_f32) (constant S2048x2 .f32 0x00000000#32)) (ix2 r j)
    + (broadcastTo S2048x2 (shapeCast S1x2 b4 shapeCasts_S2_S1x2) broadcasts_S1x2_S2048x2) (ix2 r j) = _
  rw [matmul_zero_apply dot_S2048x64_S64x2_S2048x2_1_0_0_1_n_n (contrEquiv1 dot_S2048x64_S64x2_S2048x2_1_0_0_1_n_n 64 rfl rfl) dotC_l0 dotC_l1 dotC_r0 dotC_r1, rowBroadcast_apply (by decide)]
  refine congrArg (· + b4 (ix1 j)) (Finset.sum_congr rfl fun k _ => ?_)
  show hiddenBlock x W3 b3 (ix2 r k) * W4 (ix2 k j) = _
  rw [hiddenBlock_apply]

/-- Source 0's measures: columns 0 and 1 of the first perceptron's outputs. -/
theorem pay4_apply (x : Vec Ideal S2048x512 .f32) (W1 : Vec Ideal S512x64 .f32) (b1 : Vec Ideal S64 .f32)
    (W2 : Vec Ideal S64x4 .f32) (b2 : Vec Ideal S4 .f32) (r : Fin 2048) (j : Fin 2) :
    k0_pay4 x W1 b1 W2 b2 (ix2 r j) = k0_pay3 x W1 b1 W2 b2 (ix2 r (src0 j)) := by
  show extractStridedSlice S2048x2 ![0, 0] (k0_pay3 x W1 b1 W2 b2) slices_S2048x4_o0_0_S2048x2 (ix2 r j) = _
  rw [colSlice_apply 0 _ _ r j (by have := j.isLt; omega)]
  exact congrArg (k0_pay3 x W1 b1 W2 b2) (idx2_ext rfl (by show 0 + j.val = j.val; omega))

/-- Source 1's measures: columns 2 and 3. -/
theorem pay5_apply (x : Vec Ideal S2048x512 .f32) (W1 : Vec Ideal S512x64 .f32) (b1 : Vec Ideal S64 .f32)
    (W2 : Vec Ideal S64x4 .f32) (b2 : Vec Ideal S4 .f32) (r : Fin 2048) (j : Fin 2) :
    k0_pay5 x W1 b1 W2 b2 (ix2 r j) = k0_pay3 x W1 b1 W2 b2 (ix2 r (src1 j)) := by
  show extractStridedSlice S2048x2 ![0, 2] (k0_pay3 x W1 b1 W2 b2) slices_S2048x4_o0_2_S2048x2 (ix2 r j) = _
  rw [colSlice_apply 2 _ _ r j (by have := j.isLt; omega)]
  exact congrArg (k0_pay3 x W1 b1 W2 b2) (idx2_ext rfl (by show 2 + j.val = j.val + 2; omega))

/-! ## The Choquet integrals and the softmax -/

/-- The block of Choquet integrals: from the two sources' measures `mu1`, `mu2`, the second perceptron's output `lin`
    (its sigmoid is the interaction term) and the flattened probability block `p`. -/
def integralBlock (mu1 mu2 lin : FVec Ideal S2048x2 .f32) (p : Vec Ideal S2048x4 .f32) : FVec Ideal S2048x2 .f32 :=
  select (cmpf .ole (extractStridedSlice S2048x2 ![0, 0] (shapeCast (α := Ideal .f32) S2048x4 p shapeCasts_S2048x4_S2048x4) slices_S2048x4_o0_0_S2048x2) (extractStridedSlice S2048x2 ![0, 2] (shapeCast (α := Ideal .f32) S2048x4 p shapeCasts_S2048x4_S2048x4) slices_S2048x4_o0_2_S2048x2))
    (addf (mulf (extractStridedSlice S2048x2 ![0, 0] (shapeCast (α := Ideal .f32) S2048x4 p shapeCasts_S2048x4_S2048x4) slices_S2048x4_o0_0_S2048x2) mu1) (mulf (subf (extractStridedSlice S2048x2 ![0, 2] (shapeCast (α := Ideal .f32) S2048x4 p shapeCasts_S2048x4_S2048x4) slices_S2048x4_o0_2_S2048x2) (extractStridedSlice S2048x2 ![0, 0] (shapeCast (α := Ideal .f32) S2048x4 p shapeCasts_S2048x4_S2048x4) slices_S2048x4_o0_0_S2048x2)) (minimumf (addf (maximumf mu1 mu2) (logistic lin)) (broadcast S2048x2 (Scalar.ofBits .f32 0x3F800000#32)))))
    (addf (mulf (extractStridedSlice S2048x2 ![0, 2] (shapeCast (α := Ideal .f32) S2048x4 p shapeCasts_S2048x4_S2048x4) slices_S2048x4_o0_2_S2048x2) mu2) (mulf (subf (extractStridedSlice S2048x2 ![0, 0] (shapeCast (α := Ideal .f32) S2048x4 p shapeCasts_S2048x4_S2048x4) slices_S2048x4_o0_0_S2048x2) (extractStridedSlice S2048x2 ![0, 2] (shapeCast (α := Ideal .f32) S2048x4 p shapeCasts_S2048x4_S2048x4) slices_S2048x4_o0_2_S2048x2)) (minimumf (addf (maximumf mu1 mu2) (logistic lin)) (broadcast S2048x2 (Scalar.ofBits .f32 0x3F800000#32)))))

/-- Class `j`'s integral of row `r`. -/
theorem integralBlock_apply (mu1 mu2 lin : FVec Ideal S2048x2 .f32) (p : Vec Ideal S2048x4 .f32) (r : Fin 2048) (j : Fin 2) :
    integralBlock mu1 mu2 lin p (ix2 r j)
      = choquet (p (ix2 r (src0 j))) (p (ix2 r (src1 j))) (mu1 (ix2 r j)) (mu2 (ix2 r j)) (Ideal.logistic (lin (ix2 r j))) := by
  have s0 : (extractStridedSlice S2048x2 ![0, 0] (shapeCast (α := Ideal .f32) S2048x4 p shapeCasts_S2048x4_S2048x4) slices_S2048x4_o0_0_S2048x2) (ix2 r j) = p (ix2 r (src0 j)) := by
    rw [colSlice_apply 0 _ _ r j (by have := j.isLt; omega), shapeCast_self]
    exact congrArg p (idx2_ext rfl (by show 0 + j.val = j.val; omega))
  have s2 : (extractStridedSlice S2048x2 ![0, 2] (shapeCast (α := Ideal .f32) S2048x4 p shapeCasts_S2048x4_S2048x4) slices_S2048x4_o0_2_S2048x2) (ix2 r j) = p (ix2 r (src1 j)) := by
    rw [colSlice_apply 2 _ _ r j (by have := j.isLt; omega), shapeCast_self]
    exact congrArg p (idx2_ext rfl (by show 2 + j.val = j.val + 2; omega))
  unfold integralBlock
  simp only [select_apply, cmpf_apply, addf_apply, mulf_apply, subf_apply, minimumf_apply, maximumf_apply, broadcast_apply, s0, s2]
  rfl

/-- A row's maximum, as the body takes it, broadcast back across the row. -/
def rowTop (R : FVec Ideal S2048x2 .f32) : FVec Ideal S2048x2 .f32 :=
  (broadcastTo S2048x2 (shapeCast S2048x1 (maximumf (broadcast S2048 (Scalar.ofBits .f32 0xFF800000#32)) (multiReduction .maximumf [1] S2048 R 0xFF800000#32 reduces_S2048x2_S2048 (.inl rfl) rfl)) shapeCasts_S2048_S2048x1) broadcasts_S2048x1_S2048x2)

/-- The softmax along the rows of a block `R`. -/
def softmaxBlock (R : FVec Ideal S2048x2 .f32) : FVec Ideal S2048x2 .f32 :=
  divf (exp (subf R (rowTop R)))
    (broadcastTo S2048x2 (shapeCast S2048x1 (multiReduction .add [1] S2048 (exp (subf R (rowTop R))) 0x00000000#32 reduces_S2048x2_S2048 (.inl rfl) rfl) shapeCasts_S2048_S2048x1) broadcasts_S2048x1_S2048x2)

/-- A row's maximum read anywhere in the row. -/
theorem rowTop_apply (R : FVec Ideal S2048x2 .f32) (r : Fin 2048) (k : Fin 2) :
    rowTop R (ix2 r k) = top2 (fun k' => R (ix2 r k')) := by
  unfold rowTop
  rw [colBroadcast_apply (by decide)]
  exact congrArg (max (Ideal.ofBits .f32 0xFF800000#32))
    (rowMax_apply (M := 2048) (N := 2) R 0xFF800000#32 reduces_S2048x2_S2048 (.inl rfl) rfl r)

/-- The softmax of row `r` at class `j`. -/
theorem softmaxBlock_apply (R : FVec Ideal S2048x2 .f32) (r : Fin 2048) (j : Fin 2) :
    softmaxBlock R (ix2 r j) = softmax2 (fun k => R (ix2 r k)) j := by
  unfold softmaxBlock
  show Ideal.div (Ideal.exp (R (ix2 r j) - rowTop R (ix2 r j)))
    ((broadcastTo S2048x2 (shapeCast S2048x1 (multiReduction .add [1] S2048 (exp (subf R (rowTop R))) 0x00000000#32 reduces_S2048x2_S2048 (.inl rfl) rfl) shapeCasts_S2048_S2048x1) broadcasts_S2048x1_S2048x2) (ix2 r j)) = _
  rw [colBroadcast_apply (by decide), rowTop_apply]
  unfold softmax2
  refine congrArg (Ideal.div _) ((rowSum_apply (M := 2048) (N := 2) (exp (subf R (rowTop R))) 0x00000000#32
    reduces_S2048x2_S2048 (.inl rfl) rfl r).trans (Finset.sum_congr rfl fun k _ => ?_))
  show Ideal.exp (R (ix2 r k) - rowTop R (ix2 r k)) = _
  rw [rowTop_apply]

/-- The store's payload is the softmax of the integral block. -/
theorem pay1_eq (mu1 mu2 lin : FVec Ideal S2048x2 .f32) (p : Vec Ideal S2048x4 .f32) :
    k0_pay1 mu1 mu2 lin p = softmaxBlock (integralBlock mu1 mu2 lin p) := rfl

/-- What the body stores at (r, j), from its ten input blocks: the specification's network on row `r`. -/
theorem stored_apply (P0 : Vec Ideal S2048x4 .f32) (P1 : Vec Ideal S2048x512 .f32) (P2 : Vec Ideal S512x64 .f32)
    (P3 : Vec Ideal S64 .f32) (P4 : Vec Ideal S64x4 .f32) (P5 : Vec Ideal S4 .f32) (P6 : Vec Ideal S512x64 .f32)
    (P7 : Vec Ideal S64 .f32) (P8 : Vec Ideal S64x2 .f32) (P9 : Vec Ideal S2 .f32) (r : Fin 2048) (j : Fin 2) :
    k0_pay1 (k0_pay4 P1 P2 P3 P4 P5) (k0_pay5 P1 P2 P3 P4 P5) (k0_pay6 P1 P6 P7 P8 P9) P0 (ix2 r j)
      = rowOut (fun q => P0 (ix2 r q)) (fun k => P1 (ix2 r k)) (fun k h => P2 (ix2 k h)) (fun h => P3 (ix1 h))
          (fun h q => P4 (ix2 h q)) (fun q => P5 (ix1 q)) (fun k h => P6 (ix2 k h)) (fun h => P7 (ix1 h))
          (fun h j => P8 (ix2 h j)) (fun j => P9 (ix1 j)) j := by
  rw [pay1_eq, softmaxBlock_apply]
  unfold rowOut
  refine congrArg (fun f => softmax2 f j) (funext fun j' => ?_)
  rw [integralBlock_apply, pay4_apply, pay5_apply, pay3_apply, pay3_apply, pay6_apply]
  rfl

end Cert.Fusion.Ker

end
-- ==== Proof.Final.lean ====
/-
  From the blocks to the whole array: after the kernel's run its result array is the specification's function of the
  argument arrays.

  The grid has 128 points; point `t` works on batch rows 2048 t … 2048 t + 2047. Its feature block and probability block
  are those rows of their arrays, the eight weight and bias windows are the whole arrays at every point, and the block
  it writes back is those rows of the result. Since the body computes each row from that row alone, what point `t`
  writes back is the specification read through its block; the 128 blocks tile the result, so the result is the
  specification everywhere. In front of the region the host flattens the probabilities from [batch, source, class] to
  [batch, 4] in row-major order, which is how the specification numbers them.
-/
import proofs.«160284_j32366873543134_1_alg».proof.Proof.Gen.KernelIdeal.Value
import proofs.«160284_j32366873543134_1_alg».proof.Proof.KerRow
import Idealize.ShloMosaic.Lib.Pipeline.Value
import Idealize.ShloMosaic.Lib.StableHlo.Run

noncomputable section

namespace Cert.Fusion.Final

open Cert.KernelIdeal Cert.KernelIdeal.Gen Cert.KernelIdeal.Value Idealize.ShloMosaic Idealize.ShloMosaic.TcCoe Idealize.SL.Sem
open Idealize.ShloMosaic.ValueIdx Cert.Fusion Cert.Rank2
open Idealize.ShloMosaic.Pipeline (Dat)

variable (m : (ℓ : Loc nD τ sig) → Buf (Elt Ideal) ℓ) (ρ : Dev nD → PrngReg)

/-- The specification over probabilities already flattened to [batch, 4]. -/
def Gflat (pf : S262144x4.Idx → EReal) (x : S262144x512.Idx → EReal) (W1 : S512x64.Idx → EReal) (b1 : S64.Idx → EReal)
    (W2 : S64x4.Idx → EReal) (b2 : S4.Idx → EReal) (W3 : S512x64.Idx → EReal) (b3 : S64.Idx → EReal)
    (W4 : S64x2.Idx → EReal) (b4 : S2.Idx → EReal) : S262144x2.Idx → EReal := fun i =>
  rowOut (fun q => pf (ix2 (i 0 : Fin 262144) q)) (fun k => x (ix2 (i 0 : Fin 262144) k))
    (fun k h => W1 (ix2 k h)) (fun h => b1 (ix1 h)) (fun h q => W2 (ix2 h q)) (fun q => b2 (ix1 q))
    (fun k h => W3 (ix2 k h)) (fun h => b3 (ix1 h)) (fun h j => W4 (ix2 h j)) (fun j => b4 (ix1 j)) (i 1 : Fin 2)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three batch-tiled windows sit at block `t` of the batch axis at point `t`,
    the eight others at block 0 throughout. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- Batch row `r` of point `t`'s blocks. -/
def row (t : Fin cfg0.N) (r : Fin 2048) : Fin 262144 :=
  ⟨t.val * 2048 + r.val, by have ht : t.val < 128 := t.isLt; have := r.isLt; omega⟩

/-! ## The input blocks, read -/

theorem read0 (c : Dev nD) (t : Fin cfg0.N) (r : Fin 2048) (k : Fin 512) :
    (iblk m c 0 t : Vec Ideal S2048x512 .f32) (ix2 r k) = V m c main_arg1 (ix2 (row t r) k) := by
  obtain ⟨-, -, e0, e1, -⟩ := idx_facts t
  show V m c main_arg1 (((cfg0.win 0).blk t).view.emb (ix2 r k)) = _
  exact congrArg (V m c main_arg1) (idx2_ext
    (by show win0_0.index t (0 : Fin 2) * 2048 + 1 * r.val = t.val * 2048 + r.val; omega)
    (by show win0_0.index t (1 : Fin 2) * 512 + 1 * k.val = k.val; omega))

theorem read1 (c : Dev nD) (t : Fin cfg0.N) (r : Fin 2048) (q : Fin 4) :
    (iblk m c 1 t : Vec Ideal S2048x4 .f32) (ix2 r q) = V m c main_v0 (ix2 (row t r) q) := by
  obtain ⟨-, -, -, -, e0, e1, -⟩ := idx_facts t
  show V m c main_v0 (((cfg0.win 1).blk t).view.emb (ix2 r q)) = _
  exact congrArg (V m c main_v0) (idx2_ext
    (by show win0_1.index t (0 : Fin 2) * 2048 + 1 * r.val = t.val * 2048 + r.val; omega)
    (by show win0_1.index t (1 : Fin 2) * 4 + 1 * q.val = q.val; omega))

theorem read2 (c : Dev nD) (t : Fin cfg0.N) (k : Fin 512) (h : Fin 64) :
    (iblk m c 2 t : Vec Ideal S512x64 .f32) (ix2 k h) = V m c main_arg2 (ix2 k h) := by
  obtain ⟨-, -, -, -, -, -, e0, e1, -⟩ := idx_facts t
  show V m c main_arg2 (((cfg0.win 2).blk t).view.emb (ix2 k h)) = _
  exact congrArg (V m c main_arg2) (idx2_ext
    (by show win0_2.index t (0 : Fin 2) * 512 + 1 * k.val = k.val; omega)
    (by show win0_2.index t (1 : Fin 2) * 64 + 1 * h.val = h.val; omega))

theorem read3 (c : Dev nD) (t : Fin cfg0.N) (h : Fin 64) :
    (iblk m c 3 t : Vec Ideal S64 .f32) (ix1 h) = V m c main_arg3 (ix1 h) := by
  obtain ⟨-, -, -, -, -, -, -, -, e0, -⟩ := idx_facts t
  show V m c main_arg3 (((cfg0.win 3).blk t).view.emb (ix1 h)) = _
  exact congrArg (V m c main_arg3) (idx1_ext
    (by show win0_3.index t (0 : Fin 1) * 64 + 1 * h.val = h.val; omega))

theorem read4 (c : Dev nD) (t : Fin cfg0.N) (h : Fin 64) (q : Fin 4) :
    (iblk m c 4 t : Vec Ideal S64x4 .f32) (ix2 h q) = V m c main_arg4 (ix2 h q) := by
  obtain ⟨-, -, -, -, -, -, -, -, -, e0, e1, -⟩ := idx_facts t
  show V m c main_arg4 (((cfg0.win 4).blk t).view.emb (ix2 h q)) = _
  exact congrArg (V m c main_arg4) (idx2_ext
    (by show win0_4.index t (0 : Fin 2) * 64 + 1 * h.val = h.val; omega)
    (by show win0_4.index t (1 : Fin 2) * 4 + 1 * q.val = q.val; omega))

theorem read5 (c : Dev nD) (t : Fin cfg0.N) (q : Fin 4) :
    (iblk m c 5 t : Vec Ideal S4 .f32) (ix1 q) = V m c main_arg5 (ix1 q) := by
  obtain ⟨-, -, -, -, -, -, -, -, -, -, -, e0, -⟩ := idx_facts t
  show V m c main_arg5 (((cfg0.win 5).blk t).view.emb (ix1 q)) = _
  exact congrArg (V m c main_arg5) (idx1_ext
    (by show win0_5.index t (0 : Fin 1) * 4 + 1 * q.val = q.val; omega))

theorem read6 (c : Dev nD) (t : Fin cfg0.N) (k : Fin 512) (h : Fin 64) :
    (iblk m c 6 t : Vec Ideal S512x64 .f32) (ix2 k h) = V m c main_arg6 (ix2 k h) := by
  obtain ⟨-, -, -, -, -, -, -, -, -, -, -, -, e0, e1, -⟩ := idx_facts t
  show V m c main_arg6 (((cfg0.win 6).blk t).view.emb (ix2 k h)) = _
  exact congrArg (V m c main_arg6) (idx2_ext
    (by show win0_6.index t (0 : Fin 2) * 512 + 1 * k.val = k.val; omega)
    (by show win0_6.index t (1 : Fin 2) * 64 + 1 * h.val = h.val; omega))

theorem read7 (c : Dev nD) (t : Fin cfg0.N) (h : Fin 64) :
    (iblk m c 7 t : Vec Ideal S64 .f32) (ix1 h) = V m c main_arg7 (ix1 h) := by
  obtain ⟨-, -, -, -, -, -, -, -, -, -, -, -, -, -, e0, -⟩ := idx_facts t
  show V m c main_arg7 (((cfg0.win 7).blk t).view.emb (ix1 h)) = _
  exact congrArg (V m c main_arg7) (idx1_ext
    (by show win0_7.index t (0 : Fin 1) * 64 + 1 * h.val = h.val; omega))

theorem read8 (c : Dev nD) (t : Fin cfg0.N) (h : Fin 64) (j : Fin 2) :
    (iblk m c 8 t : Vec Ideal S64x2 .f32) (ix2 h j) = V m c main_arg8 (ix2 h j) := by
  obtain ⟨-, -, -, -, -, -, -, -, -, -, -, -, -, -, -, e0, e1, -⟩ := idx_facts t
  show V m c main_arg8 (((cfg0.win 8).blk t).view.emb (ix2 h j)) = _
  exact congrArg (V m c main_arg8) (idx2_ext
    (by show win0_8.index t (0 : Fin 2) * 64 + 1 * h.val = h.val; omega)
    (by show win0_8.index t (1 : Fin 2) * 2 + 1 * j.val = j.val; omega))

theorem read9 (c : Dev nD) (t : Fin cfg0.N) (j : Fin 2) :
    (iblk m c 9 t : Vec Ideal S2 .f32) (ix1 j) = V m c main_arg9 (ix1 j) := by
  obtain ⟨-, -, -, -, -, -, -, -, -, -, -, -, -, -, -, -, -, e0⟩ := idx_facts t
  show V m c main_arg9 (((cfg0.win 9).blk t).view.emb (ix1 j)) = _
  exact congrArg (V m c main_arg9) (idx1_ext
    (by show win0_9.index t (0 : Fin 1) * 2 + 1 * j.val = j.val; omega))

/-! ## What a point writes back, and the whole array -/

/-- What point `t` writes back is block `t` of the specification of the arrays as the region finds them. -/
theorem flushed_eq (c : Dev nD) (t : Fin cfg0.N) :
    (dats m 0 c).flushed 10 t = ((cfg0.win 10).blk t).view.read (Elt Ideal) (Gflat (V m c main_v0) (V m c main_arg1) (V m c main_arg2) (V m c main_arg3) (V m c main_arg4) (V m c main_arg5) (V m c main_arg6) (V m c main_arg7) (V m c main_arg8) (V m c main_arg9)) := by
  rw [flushed10]
  unfold out0_10
  rw [View.canon_unit_zero hz2]
  simp only [View.ld_unit_zero (S := S2048x512) hz2, View.ld_unit_zero (S := S2048x4) hz2,
    View.ld_unit_zero (S := S512x64) hz2, View.ld_unit_zero (S := S64) hz1, View.ld_unit_zero (S := S64x4) hz2,
    View.ld_unit_zero (S := S4) hz1, View.ld_unit_zero (S := S64x2) hz2, View.ld_unit_zero (S := S2) hz1]
  funext y
  obtain ⟨r, j, rfl⟩ : ∃ (r : Fin 2048) (j : Fin 2), y = ix2 r j := ⟨y 0, y 1, eq_ix2 y⟩
  obtain ⟨e0, e1, -⟩ := idx_facts t
  have hi : ((cfg0.win 10).blk t).view.emb (ix2 r j) = ix2 (row t r) j := idx2_ext
    (by show win0_10.index t (0 : Fin 2) * 2048 + 1 * r.val = t.val * 2048 + r.val; omega)
    (by show win0_10.index t (1 : Fin 2) * 2 + 1 * j.val = j.val; omega)
  show k0_pay1 (k0_pay4 (iblk m c 0 t) (iblk m c 2 t) (iblk m c 3 t) (iblk m c 4 t) (iblk m c 5 t))
      (k0_pay5 (iblk m c 0 t) (iblk m c 2 t) (iblk m c 3 t) (iblk m c 4 t) (iblk m c 5 t))
      (k0_pay6 (iblk m c 0 t) (iblk m c 6 t) (iblk m c 7 t) (iblk m c 8 t) (iblk m c 9 t)) (iblk m c 1 t) (ix2 r j)
    = Gflat (V m c main_v0) (V m c main_arg1) (V m c main_arg2) (V m c main_arg3) (V m c main_arg4) (V m c main_arg5) (V m c main_arg6) (V m c main_arg7) (V m c main_arg8) (V m c main_arg9) (((cfg0.win 10).blk t).view.emb (ix2 r j))
  rw [hi]
  refine (Ker.stored_apply (iblk m c 1 t) (iblk m c 0 t) (iblk m c 2 t) (iblk m c 3 t) (iblk m c 4 t) (iblk m c 5 t)
    (iblk m c 6 t) (iblk m c 7 t) (iblk m c 8 t) (iblk m c 9 t) r j).trans ?_
  simp only [read0 m c t, read1 m c t, read2 m c t, read3 m c t, read4 m c t, read5 m c t, read6 m c t, read7 m c t,
    read8 m c t, read9 m c t]
  rfl

/-- An index of the result lies in point `t`'s block iff each coordinate lies in the block's range on its axis. -/
theorem mem_blk (t : Fin cfg0.N) (i : S262144x2.Idx) :
    i ∈ ((cfg0.win 10).blk t).view.set ↔ ∀ a : Fin 2, win0_10.index t a * S2048x2.size a ≤ (i a).val ∧ (i a).val < win0_10.index t a * S2048x2.size a + S2048x2.size a := by
  show i ∈ ((View.whole main_v1).slice (win0_10.rect t)).set ↔ _
  rw [View.set_slice_whole, Rect.mem_set_unit]
  exact Iff.rfl

/-- Every index of the result is in some point's block: row `b` is in block `b / 2048`. -/
theorem cover (i : S262144x2.Idx) :
    ∃ t : Fin cfg0.N, (cfg0.win 10).flush t = true ∧ i ∈ ((cfg0.win 10).blk t).view.set := by
  have hi0 : (i 0).val < 262144 := (i 0).isLt
  have hi1 : (i 1).val < 2 := (i 1).isLt
  refine ⟨⟨(i 0).val / 2048, by show (i 0).val / 2048 < 128; omega⟩, flush0_10 _, ?_⟩
  rw [mem_blk]
  obtain ⟨e0, e1, -⟩ := idx_facts ⟨(i 0).val / 2048, by show (i 0).val / 2048 < 128; omega⟩
  have e0' : win0_10.index ⟨(i 0).val / 2048, by show (i 0).val / 2048 < 128; omega⟩ (0 : Fin 2) = (i 0).val / 2048 := e0
  intro a
  match a with
  | ⟨0, _⟩ =>
    show win0_10.index _ (0 : Fin 2) * 2048 ≤ (i 0).val ∧ (i 0).val < win0_10.index _ (0 : Fin 2) * 2048 + 2048
    rw [e0']; omega
  | ⟨1, _⟩ =>
    show win0_10.index _ (1 : Fin 2) * 2 ≤ (i 1).val ∧ (i 1).val < win0_10.index _ (1 : Fin 2) * 2 + 2
    rw [e1]; omega

/-- The result array after the run, over the arrays as the region finds them. -/
theorem final (c : Dev nD) : (dats m 0 c).arrAt 10 cfg0.N = Gflat (V m c main_v0) (V m c main_arg1) (V m c main_arg2) (V m c main_arg3) (V m c main_arg4) (V m c main_arg5) (V m c main_arg6) (V m c main_arg7) (V m c main_arg8) (V m c main_arg9) :=
  (dats m 0 c).arrAt_eq_of_cover 10 _ (fun t _ => flushed_eq m c t) cover

/-! ## The host's flattening in front of the region -/

/-- The region finds the probabilities flattened from [batch, source, class] to [batch, 4]. -/
theorem flat_eq (c : Dev nD) :
    (V m c main_v0 : S262144x4.Idx → EReal)
      = shapeCast S262144x4 (m ((c : Thread nD τ).loc main_arg0)) shapeCasts_S262144x2x2_S262144x4 := by
  dsimp only [Gen.V, Gen.hostOps0]; after_results; rfl

/-- Entry (b, q) of the flattened probabilities is row `b`'s probability number `q`. -/
theorem flatProb (probs : S262144x2x2.Idx → EReal) (b : Fin 262144) (q : Fin 4) :
    shapeCast S262144x4 probs shapeCasts_S262144x2x2_S262144x4 (ix2 b q) = probAt probs b q := by
  unfold probAt
  refine shapeCast_apply probs _ (ix2 b q) _ ?_
  rw [Shape.rowMajor_val_three, Shape.rowMajor_val_two]
  show (b.val * 2 + q.val / 2) * 2 + q.val % 2 = b.val * 4 + q.val
  have := q.isLt; omega

/-- So the specification over the flattened probabilities is the specification. -/
theorem Gflat_shapeCast (probs : S262144x2x2.Idx → EReal) (x : S262144x512.Idx → EReal) (W1 : S512x64.Idx → EReal)
    (b1 : S64.Idx → EReal) (W2 : S64x4.Idx → EReal) (b2 : S4.Idx → EReal) (W3 : S512x64.Idx → EReal) (b3 : S64.Idx → EReal)
    (W4 : S64x2.Idx → EReal) (b4 : S2.Idx → EReal) :
    Gflat (shapeCast S262144x4 probs shapeCasts_S262144x2x2_S262144x4) x W1 b1 W2 b2 W3 b3 W4 b4
      = G probs x W1 b1 W2 b2 W3 b3 W4 b4 := by
  funext i
  obtain ⟨b, j, rfl⟩ : ∃ (b : Fin 262144) (j : Fin 2), i = ix2 b j := ⟨i 0, i 1, eq_ix2 i⟩
  show rowOut (fun q => shapeCast S262144x4 probs shapeCasts_S262144x2x2_S262144x4 (ix2 b q)) _ _ _ _ _ _ _ _ _ j
    = rowOut (probAt probs b) _ _ _ _ _ _ _ _ _ j
  rw [show (fun q => shapeCast S262144x4 probs shapeCasts_S262144x2x2_S262144x4 (ix2 b q)) = probAt probs b from
    funext fun q => flatProb probs b q]

/-- The result array after the run is the specification's function of the argument arrays. -/
theorem final' (c : Dev nD) : (dats m 0 c).arrAt 10 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final, flat_eq, V_main_arg1, V_main_arg2, V_main_arg3, V_main_arg4, V_main_arg5, V_main_arg6, V_main_arg7,
    V_main_arg8, V_main_arg9, Gflat_shapeCast]

/-- The kernel's run: every weakly fair execution ends with the result at the specification and the arguments
    unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final' m c), (h c).2⟩) (run_blocks m ρ)

end Cert.Fusion.Final

end
-- ==== Proof.lean ====
/-
  Two sources' class probabilities fused by a learned Choquet integral, then a softmax: the kernel against its
  reference, equal over the extended reals.

  Both programs compute, for every batch row, the function `Cert.Fusion.rowOut` (Proof/Spec.lean): two perceptrons on
  the row's 512 features give the sources' fuzzy measures and their interaction, the Choquet integral of the two
  sources' probabilities is taken per class, and the two classes are normalised by a softmax. The kernel does this
  for 2048 rows at a grid point, with its matrix products' operands narrowed to bf16 and its sigmoids one operation;
  the reference does it for the whole batch at once, in f32, with its sigmoids spelled out as 1 / (1 + exp (-v)) and
  the four measure outputs reshaped to [source, class] where the kernel slices columns. At the exact instance none of
  this is a difference: narrowing is the identity, both products are the same sums, the spelled-out sigmoid is the
  sigmoid (the word of 1.0 is the number one), and the reshape followed by a slice picks the same column. No step uses
  that the inputs are finite.

  Proof/RefRow.lean reads the reference's result at a row (`Ref.ref_eq`); Proof/KerRow.lean reads what the kernel's
  body stores at a row of its block; Proof/Final.lean carries that over the 128 blocks to the whole result array
  (`Final.run`). The three frames are the generated ones (the reference's is its generated run with the result
  dropped), and the idealisation changed nothing that needs a witness.
-/
import proofs.«160284_j32366873543134_1_alg».proof.Defs
import proofs.«160284_j32366873543134_1_alg».proof.Proof.Gen.Kernel
import proofs.«160284_j32366873543134_1_alg».proof.Proof.Gen.Kernel.Skeleton
import proofs.«160284_j32366873543134_1_alg».proof.Proof.Gen.Kernel.Launch
import proofs.«160284_j32366873543134_1_alg».proof.Proof.Gen.Kernel.Points
import proofs.«160284_j32366873543134_1_alg».proof.Proof.Gen.Kernel.Frame
import proofs.«160284_j32366873543134_1_alg».proof.Proof.Gen.KernelIdeal
import proofs.«160284_j32366873543134_1_alg».proof.Proof.Gen.KernelIdeal.Skeleton
import proofs.«160284_j32366873543134_1_alg».proof.Proof.Gen.KernelIdeal.Launch
import proofs.«160284_j32366873543134_1_alg».proof.Proof.Gen.KernelIdeal.Points
import proofs.«160284_j32366873543134_1_alg».proof.Proof.Gen.KernelIdeal.Frame
import proofs.«160284_j32366873543134_1_alg».proof.Proof.Gen.ReferenceIdeal
import proofs.«160284_j32366873543134_1_alg».proof.Proof.Gen.Pre_finite_inputs
import proofs.«160284_j32366873543134_1_alg».proof.Proof.Gen.KernelIdeal.Value
import proofs.«160284_j32366873543134_1_alg».proof.Proof.Gen.ReferenceIdeal.Run
import proofs.«160284_j32366873543134_1_alg».proof.Proof.Gen.ReferenceIdeal.Read
import proofs.«160284_j32366873543134_1_alg».proof.Proof.RefRow
import proofs.«160284_j32366873543134_1_alg».proof.Proof.Final
import Idealize.ShloMosaic.Adequacy
import Idealize.ShloMosaic.Init

noncomputable section

namespace Cert.Proof

open Idealize.ShloMosaic Idealize.SL.Sem Cert.Kernel

/-- The reference's frame: its run, with the result forgotten. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories that agree on the ten arguments both programs end with the specification's function of those
    arguments in their result arrays, and leave the arguments as they were. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Fusion.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v63_eq, Cert.Fusion.Ref.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
